-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  concatenates_S2048x64_S2048x64_S2048x128_d1 : Shape.Concatenates [S2048x64, S2048x64] S2048x128 1
  slices_S512x128_o0_0_S512x64 : S512x128.Slices ![0, 0] S512x64
  slices_S512x128_o0_64_S512x1 : S512x128.Slices ![0, 64] S512x1
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Dots.lean ====
/-
  The kernel's two matrix products, read at an entry, at the ideal values (into a zero accumulator: just the sum).

    * scores:  a [512, 64] block of queries against a [2048, 64] block of keys, both contracted on the feature
      axis: entry (p, j) is Σ_d a(p, d) · b(j, d);
    * output:  a [512, 2048] block of weights against a [2048, 128] block (values with a block of ones beside
      them), contracted on the key axis: entry (p, c) is Σ_j a(p, j) · b(j, c).

  Each is the library's sum over the contraction index, re-indexed by its one coordinate; the operand indices at an
  output index are named axis by axis.
-/
import proofs.«426709_j44246753083844_3_alg».proof.Proof.Gen.KernelIdeal.Skeleton
import Idealize.ShloMosaic.Lib.ValueIdx
import Idealize.ShloMosaic.PureOps.Ideal.Laws

noncomputable section

namespace Cert.Attn.Ker

open Cert.KernelIdeal Cert.KernelIdeal.Gen Idealize.ShloMosaic Idealize.ShloMosaic.ValueIdx

/-! ## Queries against keys -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Entry (p, j) of the scores' product: the inner product of query row p and key row j over the 64 features. -/
theorem qk_apply (a : FVec Ideal S512x64 .bf16) (b : FVec Ideal S2048x64 .bf16) (p : Fin 512) (j : Fin 2048) :
    matmul dot_S512x64_S2048x64_S512x2048_1_1_0_0_n_n none a b (constant S512x2048 .f32 0x00000000#32) (ix2 p j)
      = ∑ d : Fin 64, a (ix2 p d) * b (ix2 j d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p j) ((contrEquiv1 dot_S512x64_S2048x64_S512x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 p j) ((contrEquiv1 dot_S512x64_S2048x64_S512x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-! ## Weights against values -/

theorem lhs_pv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_pv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_pv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_pv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Entry (p, c) of the output's product: the sum over the 2048 keys of weight (p, j) times column c of row j. -/
theorem pv_apply (a : FVec Ideal S512x2048 .bf16) (b : FVec Ideal S2048x128 .bf16) (p : Fin 512) (c : Fin 128) :
    matmul dot_S512x2048_S2048x128_S512x128_1_0_0_1_n_n none a b (constant S512x128 .f32 0x00000000#32) (ix2 p c)
      = ∑ j : Fin 2048, a (ix2 p j) * b (ix2 j c) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p c) ((contrEquiv1 dot_S512x2048_S2048x128_S512x128_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S512x2048_S2048x128_S512x128_1_0_0_1_n_n.rhsIdx (ix2 p c) ((contrEquiv1 dot_S512x2048_S2048x128_S512x128_1_0_0_1_n_n 2048 rfl rfl).symm k) = ix2 k c := funext fun a => Fin.ext (by
    match a with
    | ⟨0, _⟩ => exact (rhs_pv_0 _ _).trans hk
    | ⟨1, _⟩ => exact rhs_pv_1 _ _)
  rw [el, er]

end Cert.Attn.Ker

end
-- ==== Proof.Row.lean ====
/-
  Attention of ONE query row, on the extended reals, in the two arrangements the two programs use.

  A query row `qrow` (64 features) meets 2048 key rows; the score of key `j` is the inner product scaled by 1/8
  (= 1/sqrt 64), the row's maximum `rowMax` is the fold of `max` from -∞ over the 2048 scores, and the weight of key
  `j` is exp (score j - rowMax). For one output feature, with `vals j` the value of key `j` at that feature:

    * `rowOutK`: (Σ_j weight j · vals j) · (1 / Σ_j weight j)   — the weighted sum first, one reciprocal of the row sum after;
    * `rowOutR`: Σ_j (weight j / Σ_j' weight j') · vals j        — every weight normalised first.

  On the extended reals these differ in general (a product does not distribute over a sum at the infinities), and
  they agree when the inputs are real numbers: then every score is real, the maximum is one of them, every weight
  is a POSITIVE real, the row sum L is a positive real, division by L is multiplication by the real 1/L, and the
  identity is Σ_j w_j · (1/L) · v_j = (Σ_j w_j · v_j) · (1/L) in ℝ (`rowOut_eq`).

  The float words the two programs spell are read here once: 0.125, 64.0, 1.0 (f32 and bf16), -∞, and the
  reference's scale 1.0 / sqrt 64.0, which is the real 1/8 because 64 = 8².
-/
import Idealize.ShloMosaic.PureOps.Ideal
import Idealize.ShloMosaic.PureOps.Ideal.Laws
import Idealize.ShloMosaic.Lib.ValueIdx

noncomputable section

namespace Cert.Attn

open Idealize.ShloMosaic

/-! ## The float words, as extended reals -/

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `64.0` denotes the real 64. -/
theorem ofBits_64 : Ideal.ofBits .f32 0x42800000#32 = ((64 : ℝ) : EReal) := by
  simp [Ideal.ofBits, Ideal.ieee, -EReal.coe_mul]; norm_num

/-- The f32 word of `1.0` denotes 1. -/
theorem ofBits_one : Ideal.ofBits .f32 0x3F800000#32 = 1 := by
  simp [Ideal.ofBits, Ideal.ieee, -EReal.coe_mul]; norm_num

/-- The bf16 word of `1.0` denotes 1. -/
theorem ofBits_one_bf16 : Ideal.ofBits .bf16 0x3F80#16 = 1 := by
  simp [Ideal.ofBits, Ideal.ieee, -EReal.coe_mul]; norm_num

/-- The word `0xFF800000` denotes -∞, the bottom of the extended reals. -/
theorem ofBits_ninf : Ideal.ofBits .f32 0xFF800000#32 = ⊥ := by
  simp [Ideal.ofBits, Ideal.ieee]

theorem sqrt_64 : Real.sqrt 64 = 8 := by
  rw [show (64 : ℝ) = 8 ^ 2 by norm_num]; exact Real.sqrt_sq (by norm_num)

/-- The reference's scale `1.0 / sqrt 64.0` is the real 1/8: the square root of 64 is 8 exactly. -/
theorem one_div_sqrt_64 :
    Ideal.div (Ideal.ofBits .f32 0x3F800000#32) (Ideal.sqrt (Ideal.ofBits .f32 0x42800000#32)) = ((1 / 8 : ℝ) : EReal) := by
  rw [ofBits_one, ofBits_64, Ideal.sqrt_coe, if_neg (by norm_num), sqrt_64, Ideal.div_coe (by norm_num), one_mul]

/-! ## One query row -/

section Row

variable (qrow : Fin 64 → EReal) (keys : Fin 2048 → Fin 64 → EReal) (vals : Fin 2048 → EReal)

/-- The scaled score of key `j`: the inner product over the 64 features, times 1/8. -/
def rowScore (j : Fin 2048) : EReal := (∑ d : Fin 64, qrow d * keys j d) * ((1 / 8 : ℝ) : EReal)

/-- The row's maximum score: the fold of `max` from -∞ over the 2048 keys. -/
def rowMax : EReal := (Finset.univ : Finset (Fin 2048)).fold max ⊥ (rowScore qrow keys)

/-- The weight of key `j`: exp (score j - the row's maximum). -/
def rowWeight (j : Fin 2048) : EReal := Ideal.exp (rowScore qrow keys j - rowMax qrow keys)

/-- The weighted sum of the values, then ONE reciprocal of the row sum. -/
def rowOutK : EReal := (∑ j, rowWeight qrow keys j * vals j) * Ideal.div 1 (∑ j, rowWeight qrow keys j)

/-- Every weight divided by the row sum first, then the weighted sum of the values. -/
def rowOutR : EReal := ∑ j, Ideal.div (rowWeight qrow keys j) (∑ j', rowWeight qrow keys j') * vals j

end Row

/-! ## Real numbers inside the extended reals -/

/-- The coercion ℝ → EReal commutes with finite sums. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The fold of `max` from -∞ over a NONEMPTY finite family of reals is a real (the largest of them). -/
theorem fold_max_real {ι : Type} (s : Finset ι) (hs : s.Nonempty) (g : ι → ℝ) :
    ∃ r : ℝ, s.fold max (⊥ : EReal) (fun j => (g j : EReal)) = (r : EReal) := by
  classical
  induction s using Finset.induction_on with
  | empty => exact absurd hs Finset.not_nonempty_empty
  | @insert a s ha ih =>
    rw [Finset.fold_insert ha]
    rcases s.eq_empty_or_nonempty with rfl | hne
    · exact ⟨g a, by rw [Finset.fold_empty, max_bot_right]⟩
    · obtain ⟨r, hr⟩ := ih hne
      exact ⟨max (g a) r, by rw [hr]; exact (EReal.coe_strictMono.monotone.map_max).symm⟩

/-! ## The two arrangements agree on real inputs -/

theorem rowOut_eq (qrow : Fin 64 → EReal) (keys : Fin 2048 → Fin 64 → EReal) (vals : Fin 2048 → EReal)
    (hq : ∀ d, ∃ r : ℝ, qrow d = (r : EReal)) (hk : ∀ j d, ∃ r : ℝ, keys j d = (r : EReal))
    (hv : ∀ j, ∃ r : ℝ, vals j = (r : EReal)) :
    rowOutK qrow keys vals = rowOutR qrow keys vals := by
  choose q hq using hq
  choose k hk using hk
  choose v hv using hv
  -- every score is a real
  have hscore : ∀ j, rowScore qrow keys j = (((∑ d : Fin 64, q d * k j d) * (1 / 8) : ℝ) : EReal) := fun j => by
    unfold rowScore
    rw [EReal.coe_mul, coe_sum]
    refine congrArg (· * _) (Finset.sum_congr rfl fun d _ => ?_)
    rw [hq, hk, EReal.coe_mul]
  -- so is the maximum
  obtain ⟨mx, hmx⟩ : ∃ r : ℝ, rowMax qrow keys = (r : EReal) := by
    unfold rowMax
    rw [show rowScore qrow keys = fun j => (((∑ d : Fin 64, q d * k j d) * (1 / 8) : ℝ) : EReal) from funext hscore]
    exact fold_max_real _ ⟨0, Finset.mem_univ _⟩ _
  -- every weight is a positive real
  let p : Fin 2048 → ℝ := fun j => Real.exp ((∑ d : Fin 64, q d * k j d) * (1 / 8) - mx)
  have hw : ∀ j, rowWeight qrow keys j = (p j : EReal) := fun j => by
    unfold rowWeight
    rw [hscore, hmx, ← EReal.coe_sub]
    rfl
  have hp : ∀ j, 0 < p j := fun j => Real.exp_pos _
  have hL : (∑ j, p j) ≠ 0 := ne_of_gt (Finset.sum_pos (fun j _ => hp j) ⟨0, Finset.mem_univ _⟩)
  have hsum : (∑ j, rowWeight qrow keys j) = ((∑ j, p j : ℝ) : EReal) := by
    rw [coe_sum]; exact Finset.sum_congr rfl fun j _ => hw j
  unfold rowOutK rowOutR
  rw [hsum, Ideal.div_coe hL, one_mul]
  have hK : (∑ j, rowWeight qrow keys j * vals j) = ((∑ j, p j * v j : ℝ) : EReal) := by
    rw [coe_sum]; exact Finset.sum_congr rfl fun j _ => by rw [hw, hv, EReal.coe_mul]
  rw [hK, ← EReal.coe_mul, Finset.sum_mul, coe_sum]
  refine Finset.sum_congr rfl fun j _ => ?_
  rw [hw, hv, Ideal.div_coe hL, ← EReal.coe_mul, ← EReal.coe_mul]
  exact congrArg _ (by ring)

/-! ## The whole arrays: every head, every query row, every feature

The three arguments are [4, 16, 2048, 64] arrays (batch, head, position, feature). Entry (b, h, i, d) of the result
is one-row attention of query row (b, h, i) against the 2048 key rows of head (b, h), read at value feature d. -/

section Whole

open Idealize.ShloMosaic.ValueIdx

/-- A [batch, head, position, feature] array of extended reals. -/
abbrev Arr : Type := (⟨4, ![4, 16, 2048, 64]⟩ : Shape).Idx → EReal

/-- Query row `i` of head `(b, h)`. -/
abbrev headQ (q : Arr) (b : Fin 4) (h : Fin 16) (i : Fin 2048) : Fin 64 → EReal := fun d => q (ix4 b h i d)
/-- The key rows of head `(b, h)`. -/
abbrev headK (k : Arr) (b : Fin 4) (h : Fin 16) : Fin 2048 → Fin 64 → EReal := fun j d => k (ix4 b h j d)
/-- Feature `d` of the value rows of head `(b, h)`. -/
abbrev headV (v : Arr) (b : Fin 4) (h : Fin 16) (d : Fin 64) : Fin 2048 → EReal := fun j => v (ix4 b h j d)

/-- The weighted sum first, one reciprocal after: the fused kernel's arrangement. -/
def attnK (q k v : Arr) : Arr := fun x => rowOutK (headQ q (x 0) (x 1) (x 2)) (headK k (x 0) (x 1)) (headV v (x 0) (x 1) (x 3))

/-- Weights normalised first: softmax, then the product with the values. -/
def attnR (q k v : Arr) : Arr := fun x => rowOutR (headQ q (x 0) (x 1) (x 2)) (headK k (x 0) (x 1)) (headV v (x 0) (x 1) (x 3))

/-- On arrays of real numbers the two arrangements are one function. -/
theorem attn_eq (q k v : Arr) (hq : ∀ x, ∃ r : ℝ, q x = (r : EReal)) (hk : ∀ x, ∃ r : ℝ, k x = (r : EReal))
    (hv : ∀ x, ∃ r : ℝ, v x = (r : EReal)) : attnK q k v = attnR q k v :=
  funext fun x => rowOut_eq _ _ _ (fun d => hq _) (fun j d => hk _) (fun j => hv _)

end Whole

end Cert.Attn

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Pieces.lean ====
/-
  The pieces of the kernel body that are not entry-by-entry operations, each read at an entry of its result:

    * the scaled scores: (Σ_d a(p, d) · b(j, d)) · c for the splat scale c;
    * the row maximum, kept as a [512, 1] column and laid back over the 2048 keys: at (p, j) it is the fold of `max`
      from -∞ over row p of the scores, whatever j;
    * the values with a block of ones beside them: column c < 64 of row j is the value, column 64 is the one;
    * the two slices of the [512, 128] product: columns 0..63 are the weighted sums, column 64 the row sum.
-/
import proofs.«426709_j44246753083844_3_alg».proof.Proof.Dots
import proofs.«426709_j44246753083844_3_alg».proof.Proof.Row
import proofs.«426709_j44246753083844_3_alg».proof.Proof.LibColumns
import Idealize.ShloMosaic.Lib.Pipeline.Value

noncomputable section

namespace Cert.Attn.Ker

open Cert.KernelIdeal Cert.KernelIdeal.Gen Idealize.ShloMosaic Idealize.ShloMosaic.ValueIdx Cert.Attn Cert.Lib.Columns

/-- The scaled scores at (p, j). -/
theorem scores_apply (a : FVec Ideal S512x64 .bf16) (b : FVec Ideal S2048x64 .bf16) (c : Ideal .f32) (p : Fin 512) (j : Fin 2048) :
    mulf (matmul dot_S512x64_S2048x64_S512x2048_1_1_0_0_n_n none a b (constant S512x2048 .f32 0x00000000#32))
        (broadcast S512x2048 c) (ix2 p j)
      = (∑ d : Fin 64, a (ix2 p d) * b (ix2 j d)) * c := by
  rw [mulf_apply, qk_apply, broadcast_apply]

/-- The key coordinate inserted into a row index. -/
theorem lift_row (p : Fin 512) (j : Fin 2048) : (reduces_S512x2048_S512 : S512x2048.Reduces [1] S512).lift (ix1 p) j = ix2 p j :=
  funext fun a => Fin.ext (by match a with | ⟨0, _⟩ => rfl | ⟨1, _⟩ => rfl)

/-- The row maximum, as a column laid back over the keys, at (p, j): the fold of `max` from -∞ over row p. -/
theorem rowmax_apply (s : FVec Ideal S512x2048 .f32) (hφ : FKind.Formats .f32)
    (hacc : (0xFF800000#32 : BitVec 32) = FKind.maximumf.neutral .f32 hφ) (p : Fin 512) (j : Fin 2048) :
    broadcastTo S512x2048 (shapeCast S512x1 (multiReduction .maximumf [1] S512 s 0xFF800000#32 reduces_S512x2048_S512 hφ hacc)
        shapeCasts_S512_S512x1) broadcasts_S512x1_S512x2048 (ix2 p j)
      = (Finset.univ : Finset (Fin 2048)).fold max ⊥ (fun j' => s (ix2 p j')) := by
  rw [broadcastTo_a1_ab_apply, shapeCast_a_a1_apply, Ideal.multiReduction_maximumf_single]
  show (Finset.univ : Finset (Fin 2048)).fold max (Ideal.ofBits .f32 0xFF800000#32) (s ∘ reduces_S512x2048_S512.lift (ix1 p)) = _
  rw [ofBits_ninf]
  exact congrArg (fun f : Fin 2048 → EReal => (Finset.univ : Finset (Fin 2048)).fold max ⊥ f)
    (funext fun (j' : Fin 2048) => congrArg s (lift_row p j'))

/-- Column `d` < 64 of row j of the values-beside-ones block is the value. -/
theorem aug_left (v o : FVec Ideal S2048x64 .bf16) (j : Fin 2048) (d : Fin 64) :
    concatenate S2048x128 1 [⟨S2048x64, v⟩, ⟨S2048x64, o⟩] concatenates_S2048x64_S2048x64_S2048x128_d1
        (ix2 j (⟨d.val, by omega⟩ : Fin 128)) = v (ix2 j d) :=
  concatenate_pair_apply_left 1 v o concatenates_S2048x64_S2048x64_S2048x128_d1 _ rfl (ix2 j d)
    (fun b => by match b with | ⟨0, _⟩ => rfl | ⟨1, _⟩ => rfl)

/-- Column 64 of row j of the values-beside-ones block is column 0 of the ones. -/
theorem aug_right (v o : FVec Ideal S2048x64 .bf16) (j : Fin 2048) :
    concatenate S2048x128 1 [⟨S2048x64, v⟩, ⟨S2048x64, o⟩] concatenates_S2048x64_S2048x64_S2048x128_d1
        (ix2 j (⟨64, by omega⟩ : Fin 128)) = o (ix2 j (0 : Fin 64)) :=
  concatenate_pair_apply_right 1 v o concatenates_S2048x64_S2048x64_S2048x128_d1 _ rfl rfl (ix2 j (0 : Fin 64))
    (fun b hb => by match b with | ⟨0, _⟩ => rfl | ⟨1, _⟩ => exact absurd rfl hb) rfl

/-- The slice at columns 0..63 of the [512, 128] product, at (p, d). -/
theorem slice_lo_apply (y : FVec Ideal S512x128 .f32) (p : Fin 512) (d : Fin 64) :
    extractStridedSlice S512x64 ![0, 0] y slices_S512x128_o0_0_S512x64 (ix2 p d) = y (ix2 p (⟨d.val, by omega⟩ : Fin 128)) :=
  extractStridedSlice_apply _ y _ _ _ (fun a => by match a with | ⟨0, _⟩ => exact (Nat.zero_add _).symm | ⟨1, _⟩ => exact (Nat.zero_add _).symm)

/-- The slice at column 64 of the [512, 128] product, at (p, ·). -/
theorem slice_col_apply (y : FVec Ideal S512x128 .f32) (p : Fin 512) (u : Fin 1) :
    extractStridedSlice S512x1 ![0, 64] y slices_S512x128_o0_64_S512x1 (ix2 p u) = y (ix2 p (⟨64, by omega⟩ : Fin 128)) :=
  extractStridedSlice_apply _ y _ _ _ (fun a => by
    match a with
    | ⟨0, _⟩ => exact (Nat.zero_add _).symm
    | ⟨1, _⟩ => show 64 = 64 + u.val; omega)

end Cert.Attn.Ker

end
-- ==== Proof.Payload.lean ====
/-
  What the kernel body stores, read at an entry: one-row attention of the blocks' rows, the weighted sum first
  and one reciprocal after (`Cert.Attn.rowOutK`).

  The body loads a [1, 512, 64] block of queries and [1, 2048, 64] blocks of keys and values (one head), and stores a
  [1, 512, 64] block. With the leading unit axis dropped, rounding to bf16 the identity at the ideal values, and the
  zero accumulators gone:

    scores(p, j)  = (Σ_d q(p, d) · k(j, d)) · 0.125
    weights(p, j) = exp (scores(p, j) - max_j' scores(p, j'))
    product(p, c) = Σ_j weights(p, j) · [v | 1](j, c)          -- columns 0..63 the values, column 64 the ones
    stored(p, d)  = product(p, d) · (1.0 / product(p, 64))

  so column 64 of the product is the row sum Σ_j weights(p, j) · 1, and the stored entry is `rowOutK` of query row p,
  the key rows, and feature d of the value rows.
-/
import proofs.«426709_j44246753083844_3_alg».proof.Proof.Pieces
import Idealize.ShloMosaic.Lib.ValueLayout

noncomputable section

namespace Cert.Attn.Ker

open Cert.KernelIdeal Cert.KernelIdeal.Gen Idealize.ShloMosaic Idealize.ShloMosaic.ValueIdx Cert.Attn Cert.Lib.Columns

variable (x0 : Vec Ideal S1x512x64 .f32) (x1 x2 : Vec Ideal S1x2048x64 .f32)

/-- Query row `p` of the loaded block. -/
abbrev blkQ (p : Fin 512) : Fin 64 → EReal := fun d => x0 (ix3 (0 : Fin 1) p d)
/-- The key rows of the loaded block. -/
abbrev blkK : Fin 2048 → Fin 64 → EReal := fun j d => x1 (ix3 (0 : Fin 1) j d)
/-- Feature `d` of the value rows of the loaded block. -/
abbrev blkV (d : Fin 64) : Fin 2048 → EReal := fun j => x2 (ix3 (0 : Fin 1) j d)

/-- The exponential of a block, at an entry. -/
theorem exp_apply {s : Shape} {φ : FTy} (a : FVec Ideal s φ) (i : s.Idx) : exp a i = Ideal.exp (a i) := rfl

/-! ## The three intermediate blocks -/

/-- The scaled scores of the 512 query rows against the 2048 keys. -/
def scoreBlk : FVec Ideal S512x2048 .f32 :=
  mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32))
    (broadcast S512x2048 (Scalar.ofBits .f32 0x3E000000#32))

theorem scoreBlk_apply (p : Fin 512) (j : Fin 2048) :
    scoreBlk x0 x1 (ix2 p j) = rowScore (blkQ x0 p) (blkK x1) j := by
  unfold scoreBlk rowScore
  rw [scores_apply]
  show _ * Ideal.ofBits .f32 0x3E000000#32 = _
  rw [ofBits_eighth]
  refine congrArg (· * _) (Finset.sum_congr rfl fun d _ => ?_)
  rw [truncf_apply, truncf_apply, shapeCast_1ab_ab_apply, shapeCast_1ab_ab_apply]

/-- The weights: exp of the scores less their row maximum. -/
def weightBlk : FVec Ideal S512x2048 .bf16 :=
  truncf .bf16 (exp (subf (scoreBlk x0 x1)
    (broadcastTo S512x2048 (shapeCast S512x1
      (multiReduction .maximumf [1] S512 (scoreBlk x0 x1) 0xFF800000#32 reduces_S512x2048_S512 (.inl rfl) rfl)
      shapeCasts_S512_S512x1) broadcasts_S512x1_S512x2048))) bitsLt_bf16_f32

theorem weightBlk_apply (p : Fin 512) (j : Fin 2048) :
    weightBlk x0 x1 (ix2 p j) = rowWeight (blkQ x0 p) (blkK x1) j := by
  unfold weightBlk rowWeight rowMax
  rw [truncf_apply, exp_apply, subf_apply, scoreBlk_apply]
  refine congrArg (fun z => Ideal.exp (rowScore (blkQ x0 p) (blkK x1) j - z)) ?_
  refine (rowmax_apply (scoreBlk x0 x1) (.inl rfl) rfl p j).trans ?_
  exact congrArg (fun f : Fin 2048 → EReal => (Finset.univ : Finset (Fin 2048)).fold max ⊥ f)
    (funext fun j' => scoreBlk_apply x0 x1 p j')

/-- The values with a block of ones beside them. -/
def augBlk : FVec Ideal S2048x128 .bf16 :=
  concatenate S2048x128 1
    [⟨S2048x64, truncf .bf16 (shapeCast S2048x64 x2 shapeCasts_S1x2048x64_S2048x64) bitsLt_bf16_f32⟩,
     ⟨S2048x64, broadcast S2048x64 (Scalar.ofBits .bf16 0x3F80#16)⟩]
    concatenates_S2048x64_S2048x64_S2048x128_d1

theorem augBlk_left (j : Fin 2048) (d : Fin 64) : augBlk x2 (ix2 j (⟨d.val, by omega⟩ : Fin 128)) = blkV x2 d j := by
  unfold augBlk
  rw [aug_left, truncf_apply, shapeCast_1ab_ab_apply]

theorem augBlk_right (j : Fin 2048) : augBlk x2 (ix2 j (⟨64, by omega⟩ : Fin 128)) = 1 := by
  unfold augBlk
  rw [aug_right, broadcast_apply]
  exact ofBits_one_bf16

/-- Their product: weights against values-beside-ones. -/
def prodBlk : FVec Ideal S512x128 .f32 :=
  matmul dot_S512x2048_S2048x128_S512x128_1_0_0_1_n_n none (weightBlk x0 x1) (augBlk x2) (constant S512x128 .f32 0x00000000#32)

/-! ## The stored block -/

/-- The body's payload is these blocks put together. -/
theorem pay_eq : k0_pay1 (F := Ideal) x0 x1 x2
    = shapeCast S1x512x64
        (mulf (extractStridedSlice S512x64 ![0, 0] (prodBlk x0 x1 x2) slices_S512x128_o0_0_S512x64)
          (broadcastTo S512x64
            (divf (broadcast S512x1 (Scalar.ofBits .f32 0x3F800000#32))
              (extractStridedSlice S512x1 ![0, 64] (prodBlk x0 x1 x2) slices_S512x128_o0_64_S512x1))
            broadcasts_S512x1_S512x64))
        shapeCasts_S512x64_S1x512x64 := rfl

/-- The stored block at (·, p, d): one-row attention of query row p, the key rows, and feature d of the value rows. -/
theorem pay_apply (u : Fin 1) (p : Fin 512) (d : Fin 64) :
    k0_pay1 (F := Ideal) x0 x1 x2 (ix3 u p d) = rowOutK (blkQ x0 p) (blkK x1) (blkV x2 d) := by
  rw [pay_eq, shapeCast_ab_1ab_apply, mulf_apply, broadcastTo_a1_ab_apply, divf_apply, broadcast_apply,
    slice_lo_apply, slice_col_apply]
  unfold prodBlk rowOutK
  rw [pv_apply, pv_apply]
  show _ * Ideal.div (Ideal.ofBits .f32 0x3F800000#32) _ = _
  rw [ofBits_one]
  refine congrArg₂ (· * ·) (Finset.sum_congr rfl fun j _ => ?_)
    (congrArg (Ideal.div 1) (Finset.sum_congr rfl fun j _ => ?_))
  · rw [weightBlk_apply, augBlk_left]
  · rw [weightBlk_apply, augBlk_right, mul_one]

end Cert.Attn.Ker

end
-- ==== Proof.Heads.lean ====
/-
  Batch and head merged into one axis, and split again, read at an entry.

  A [4, 16, 2048, 64] array reshaped to [64, 2048, 64] keeps its row-major order, so entry (16·b + h, r, d) of the
  merged array is entry (b, h, r, d) of the original: ((16b + h) · 2048 + r) · 64 + d on both sides. The reshape back
  reads the same way.
-/
import Idealize.ShloMosaic.Lib.Pipeline.Value
import Idealize.ShloMosaic.Lib.ValueIdx

namespace Cert.Attn

open Idealize.ShloMosaic Idealize.ShloMosaic.ValueIdx

variable {α : Type}

/-- Head `(b, h)` as one coordinate of the merged axis. -/
abbrev headIx (b : Fin 4) (h : Fin 16) : Fin 64 := ⟨b.val * 16 + h.val, by omega⟩

/-- The merged array at (16b + h, r, d) is the original at (b, h, r, d). -/
theorem merge_heads_apply (x : (⟨4, ![4, 16, 2048, 64]⟩ : Shape).Idx → α)
    (hc : (⟨4, ![4, 16, 2048, 64]⟩ : Shape).ShapeCasts ⟨3, ![64, 2048, 64]⟩) (b : Fin 4) (h : Fin 16) (r : Fin 2048) (d : Fin 64) :
    shapeCast ⟨3, ![64, 2048, 64]⟩ x hc (ix3 (headIx b h) r d) = x (ix4 b h r d) :=
  shapeCast_apply x hc _ _ (by
    rw [Shape.rowMajor_val_four, Shape.rowMajor_val_three]
    show ((b.val * 16 + h.val) * 2048 + r.val) * 64 + d.val = ((b.val * 16 + h.val) * 2048 + r.val) * 64 + d.val
    rfl)

/-- The split array at (b, h, r, d) is the merged one at (16b + h, r, d). -/
theorem split_heads_apply (y : (⟨3, ![64, 2048, 64]⟩ : Shape).Idx → α)
    (hc : (⟨3, ![64, 2048, 64]⟩ : Shape).ShapeCasts ⟨4, ![4, 16, 2048, 64]⟩) (b : Fin 4) (h : Fin 16) (r : Fin 2048) (d : Fin 64) :
    shapeCast ⟨4, ![4, 16, 2048, 64]⟩ y hc (ix4 b h r d) = y (ix3 (headIx b h) r d) :=
  shapeCast_apply y hc _ _ (by
    rw [Shape.rowMajor_val_three, Shape.rowMajor_val_four]
    show ((b.val * 16 + h.val) * 2048 + r.val) * 64 + d.val = ((b.val * 16 + h.val) * 2048 + r.val) * 64 + d.val
    rfl)

end Cert.Attn
-- ==== Proof.KernelValue.lean ====
/-
  The kernel's result array: attention with the weighted sum first (`Cert.Attn.attnK`) of the three arguments.

  The launch runs the body at the 64 × 4 points (head g, query tile s). At point (g, s) the query window holds rows
  512·s .. 512·s + 511 of head g, the key and value windows hold all 2048 rows of head g, and the output window is
  written back to rows 512·s .. 512·s + 511 of head g. So what point (g, s) writes back is the block of ONE function
  of the three [64, 2048, 64] arrays — entry (g, r, d) is one-row attention of query row (g, r) against the keys of
  head g at value feature d — and the 256 blocks tile the output array: row r of head g is in the block of point
  (g, r / 512). The arrays the region finds are the arguments with batch and head merged (head 16·b + h), and the
  result is the output array split back.
-/
import proofs.«426709_j44246753083844_3_alg».proof.Proof.Gen.KernelIdeal.Frame
import proofs.«426709_j44246753083844_3_alg».proof.Proof.Payload
import proofs.«426709_j44246753083844_3_alg».proof.Proof.Heads
import Idealize.ShloMosaic.Lib.Pipeline.Value
import Idealize.ShloMosaic.Lib.StableHlo.Run

set_option maxRecDepth 16384

noncomputable section

namespace Cert.Attn.KerValue

open Cert.KernelIdeal Cert.KernelIdeal.Gen
open Idealize.ShloMosaic Idealize.ShloMosaic.TcCoe Idealize.ShloMosaic.ValueIdx Idealize.SL.Sem
open Idealize.ShloMosaic.Pipeline (Dat)
open Cert.Attn Cert.Attn.Ker

variable (m : (ℓ : Loc nD τ sig) → Buf (Elt Ideal) ℓ) (ρ : Dev nD → PrngReg)

/-- A [head, position, feature] array of extended reals. -/
abbrev Arr3 : Type := (⟨3, ![64, 2048, 64]⟩ : Shape).Idx → EReal

/-- Entry (g, r, d): one-row attention of query row (g, r) against the keys of head g, at value feature d. -/
def attn3c (A0 A1 A2 : Arr3) (g : Fin 64) (r : Fin 2048) (d : Fin 64) : EReal :=
  rowOutK (fun dd => A0 (ix3 g r dd)) (fun j dd => A1 (ix3 g j dd)) (fun j => A2 (ix3 g j d))

/-- The whole [64, 2048, 64] output as one function of the three arrays. -/
def attn3 (A0 A1 A2 : Arr3) : Arr3 := fun x => attn3c A0 A1 A2 (x 0) (x 1) (x 2)

theorem hz3 : (![0, 0, 0] : Fin 3 → Nat) = fun _ => 0 := funext fun a => by fin_cases a <;> rfl

/-- The printed index maps, decided over the 256 points: queries and output move together over (head, tile); keys and
    values follow the head only; no window moves along the feature axis. -/
theorem idx_facts : ∀ t : Fin cfg0.N,
      win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 64 ∧ win0_3.index t (1 : Fin 3) < 4 :=
  (by decide +kernel : ∀ t : Fin grid0.N, _)

/-- Every (head, tile) is some point's. -/
theorem idx_onto : ∀ (q0 : Fin 64) (q1 : Fin 4), ∃ t : Fin cfg0.N, win0_3.index t = ![q0.val, q1.val, 0] :=
  (by decide +kernel : ∀ (q0 : Fin 64) (q1 : Fin 4), ∃ t : Fin grid0.N, win0_3.index t = ![q0.val, q1.val, 0])

/-- WHAT POINT `t` WRITES BACK is block `t` of `attn3` of the arrays as the region finds them. -/
theorem flushed_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨e00, e01, e02, e10, e11, e12, e20, e21, e22, e32, b30, b31⟩ := idx_facts t
  funext y
  obtain ⟨u, p, d, rfl⟩ : ∃ (u : Fin 1) (p : Fin 512) (d : Fin 64), y = ix3 u p d := ⟨y 0, y 1, y 2, eq_ix3 y⟩
  have hu : u.val = 0 := by omega
  -- the array index of the block's entry (u, p, d)
  have he : ((cfg0.win 3).blk t).view.emb (ix3 u p d)
      = ix3 (⟨win0_3.index t (0 : Fin 3), b30⟩ : Fin 64) (⟨win0_3.index t (1 : Fin 3) * 512 + p.val, by omega⟩ : Fin 2048) d := by
    funext a; apply Fin.ext
    match a with
    | ⟨0, _⟩ => show win0_3.index t (0 : Fin 3) * 1 + 1 * u.val = win0_3.index t (0 : Fin 3); omega
    | ⟨1, _⟩ => show win0_3.index t (1 : Fin 3) * 512 + 1 * p.val = win0_3.index t (1 : Fin 3) * 512 + p.val; omega
    | ⟨2, _⟩ => show win0_3.index t (2 : Fin 3) * 64 + 1 * d.val = d.val; omega
  show k0_pay1 (F := Ideal) (iblk m c 0 t) (iblk m c 1 t) (iblk m c 2 t) (ix3 u p d)
    = attn3 (V m c main_v0) (V m c main_v1) (V m c main_v2) (((cfg0.win 3).blk t).view.emb (ix3 u p d))
  rw [he]
  refine (pay_apply (iblk m c 0 t) (iblk m c 1 t) (iblk m c 2 t) u p d).trans ?_
  -- each window's block, read where the output's block says
  have hQ : blkQ (iblk m c 0 t) p = fun dd => V m c main_v0
      (ix3 (⟨win0_3.index t (0 : Fin 3), b30⟩ : Fin 64) (⟨win0_3.index t (1 : Fin 3) * 512 + p.val, by omega⟩ : Fin 2048) dd) :=
    funext fun dd => by
      show V m c main_v0 (((cfg0.win 0).blk t).view.emb (ix3 (0 : Fin 1) p dd)) = _
      refine congrArg (V m c main_v0) (funext fun a => Fin.ext ?_)
      match a with
      | ⟨0, _⟩ => show win0_0.index t (0 : Fin 3) * 1 + 1 * 0 = win0_3.index t (0 : Fin 3); omega
      | ⟨1, _⟩ => show win0_0.index t (1 : Fin 3) * 512 + 1 * p.val = win0_3.index t (1 : Fin 3) * 512 + p.val; omega
      | ⟨2, _⟩ => show win0_0.index t (2 : Fin 3) * 64 + 1 * dd.val = dd.val; omega
  have hK : blkK (iblk m c 1 t) = fun j dd => V m c main_v1 (ix3 (⟨win0_3.index t (0 : Fin 3), b30⟩ : Fin 64) j dd) :=
    funext fun j => funext fun dd => by
      show V m c main_v1 (((cfg0.win 1).blk t).view.emb (ix3 (0 : Fin 1) j dd)) = _
      refine congrArg (V m c main_v1) (funext fun a => Fin.ext ?_)
      match a with
      | ⟨0, _⟩ => show win0_1.index t (0 : Fin 3) * 1 + 1 * 0 = win0_3.index t (0 : Fin 3); omega
      | ⟨1, _⟩ => show win0_1.index t (1 : Fin 3) * 2048 + 1 * j.val = j.val; omega
      | ⟨2, _⟩ => show win0_1.index t (2 : Fin 3) * 64 + 1 * dd.val = dd.val; omega
  have hV : blkV (iblk m c 2 t) d = fun j => V m c main_v2 (ix3 (⟨win0_3.index t (0 : Fin 3), b30⟩ : Fin 64) j d) :=
    funext fun j => by
      show V m c main_v2 (((cfg0.win 2).blk t).view.emb (ix3 (0 : Fin 1) j d)) = _
      refine congrArg (V m c main_v2) (funext fun a => Fin.ext ?_)
      match a with
      | ⟨0, _⟩ => show win0_2.index t (0 : Fin 3) * 1 + 1 * 0 = win0_3.index t (0 : Fin 3); omega
      | ⟨1, _⟩ => show win0_2.index t (1 : Fin 3) * 2048 + 1 * j.val = j.val; omega
      | ⟨2, _⟩ => show win0_2.index t (2 : Fin 3) * 64 + 1 * d.val = d.val; omega
  exact congr (congr (congrArg rowOutK hQ) hK) hV

/-- An index of the output array is in point `t`'s block iff each coordinate is in the block's range on its axis. -/
theorem mem_blk3 (t : Fin cfg0.N) (i : S64x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- The 256 blocks tile the output array: row r of head g is in the block of point (g, r / 512). -/
theorem cover3 (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the launch is `attn3` of the arrays the region found. -/
theorem final3 (c : Dev nD) :
    (dats m 0 c).arrAt 3 cfg0.N = attn3 (V m c main_v0) (V m c main_v1) (V m c main_v2) :=
  (dats m 0 c).arrAt_eq_of_cover 3 _ (fun t _ => flushed_eq m c t) (fun i => cover3 i)

/-! ## The host lines around the region -/

/-- The region finds the queries with batch and head merged. -/
theorem V_v0 (c : Dev nD) : (V m c main_v0 : Arr3)
    = shapeCast S64x2048x64 (m ((c : Thread nD τ).loc main_arg0)) shapeCasts_S4x16x2048x64_S64x2048x64 := by
  show StableHlo.after hostOps0 (fun b => m (c, b)) (Proc.devRef .tc main_v0) = _
  after_results
  rfl
/-- Likewise the keys. -/
theorem V_v1 (c : Dev nD) : (V m c main_v1 : Arr3)
    = shapeCast S64x2048x64 (m ((c : Thread nD τ).loc main_arg1)) shapeCasts_S4x16x2048x64_S64x2048x64 := by
  show StableHlo.after hostOps0 (fun b => m (c, b)) (Proc.devRef .tc main_v1) = _
  after_results
  rfl
/-- Likewise the values. -/
theorem V_v2 (c : Dev nD) : (V m c main_v2 : Arr3)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-- THE RESULT: the output array split back into batch and head is attention, the weighted sum first, of the
    three arguments. -/
theorem result (c : Dev nD) :
    Pipeline.afterTail₀ cfgs (dats m) 0 (V0 m) [hostOps1] c main_v4
      = attnK (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  funext x
  obtain ⟨b, h, i, d, rfl⟩ : ∃ (b : Fin 4) (h : Fin 16) (i : Fin 2048) (d : Fin 64), x = ix4 b h i d :=
    ⟨x 0, x 1, x 2, x 3, eq_ix4 x⟩
  show shapeCast S4x16x2048x64
      (Pipeline.withArrays (cfgs 0).spec c (V0 m c) (fun w => (dats m 0 c).arrAt w (cfgs 0).N) (Proc.devRef .tc main_v3))
      shapeCasts_S64x2048x64_S4x16x2048x64 (ix4 b h i d) = _
  have hA : Pipeline.withArrays (cfgs 0).spec c (V0 m c) (fun w => (dats m 0 c).arrAt w (cfgs 0).N) (Proc.devRef .tc main_v3)
      = attn3 (V m c main_v0) (V m c main_v1) (V m c main_v2) :=
    (Pipeline.withArrays_arr spec0 launch0.win.arr_inj c _ _ 3).trans (final3 m c)
  rw [hA, split_heads_apply]
  show attn3c (V m c main_v0) (V m c main_v1) (V m c main_v2) (headIx b h) i d = rowOutK _ _ _
  unfold attn3c
  rw [V_v0, V_v1, V_v2]
  refine congr (congr (congrArg rowOutK (funext fun dd => ?_)) (funext fun j => funext fun dd => ?_)) (funext fun j => ?_)
  · exact merge_heads_apply _ _ b h i dd
  · exact merge_heads_apply _ _ b h j dd
  · exact merge_heads_apply _ _ b h j d

/-! ## The run, read -/

/-- Every weakly fair execution of the kernel's program terminates with the result array at attention (the weighted
    sum first) of the three arguments, and the arguments as launched. -/
theorem run : θ_run defs (onTc (τ := τ) (main (F := Ideal))) ⟨m, fun _ => 0, ρ⟩ fun r => ∀ c : Dev nD,
      r.2.mem ((c.tc : Thread nD τ).loc main_v4)
        = attnK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Attn.KerValue

end
-- ==== Proof.RefValue.lean ====
/-
  The reference, read at an entry: it IS attention with the weights normalised first (`Cert.Attn.attnR`).

  The host program computes, for the whole [4, 16, 2048, 2048] score tensor at once: the inner products times
  1.0 / sqrt 64.0 (the real 1/8), the maximum over the key axis (a reduce from -∞, then one more `max` against -∞,
  which changes nothing), exp (score - maximum), the sum over the key axis from 0, the quotient, and the product
  with the values. Read at (b, h, i, ·) each stage is the one-row quantity of the same name: the score of key j, the
  row's maximum, the weight of key j, the row sum. The stages are the generated ones; the maximum, which the
  generated readings leave out, is the fold of `max` over the key coordinate.
-/
import proofs.«426709_j44246753083844_3_alg».proof.Proof.Gen.ReferenceIdeal.Read
import proofs.«426709_j44246753083844_3_alg».proof.Proof.Row

noncomputable section

namespace Cert.Attn.Ref

open Cert.ReferenceIdeal Cert.ReferenceIdeal.Gen Cert.ReferenceIdeal.Read
open Idealize.ShloMosaic Idealize.ShloMosaic.ValueIdx Cert.Attn

variable (x0 x1 x2 : Arr)

/-! ## The composed index functions, by coordinates -/

theorem lidx_v2 (b : Fin 4) (h : Fin 16) (i j : Fin 2048) (d : Fin 64) :
    lidx_main_v2 (ix4 b h i j) d = ix4 b h i d :=
  funext fun a => Fin.ext (by match a with | ⟨0, _⟩ => rfl | ⟨1, _⟩ => rfl | ⟨2, _⟩ => rfl | ⟨3, _⟩ => rfl)
theorem ridx_v2 (b : Fin 4) (h : Fin 16) (i j : Fin 2048) (d : Fin 64) :
    ridx_main_v2 (ix4 b h i j) d = ix4 b h j d :=
  funext fun a => Fin.ext (by match a with | ⟨0, _⟩ => rfl | ⟨1, _⟩ => rfl | ⟨2, _⟩ => rfl | ⟨3, _⟩ => rfl)
theorem idx_v8_v9 (b : Fin 4) (h : Fin 16) (i j : Fin 2048) :
    idx_main_v8 (idx_main_v9 (ix4 b h i j)) = ix3 b h i :=
  funext fun a => Fin.ext (by match a with | ⟨0, _⟩ => rfl | ⟨1, _⟩ => rfl | ⟨2, _⟩ => rfl)
theorem idx_v13_v14 (b : Fin 4) (h : Fin 16) (i j : Fin 2048) :
    idx_main_v13 (idx_main_v14 (ix4 b h i j)) = ix3 b h i :=
  funext fun a => Fin.ext (by match a with | ⟨0, _⟩ => rfl | ⟨1, _⟩ => rfl | ⟨2, _⟩ => rfl)
theorem idx_v12 (b : Fin 4) (h : Fin 16) (i j : Fin 2048) :
    idx_main_v12 (ix3 b h i) j = ix4 b h i j :=
  funext fun a => Fin.ext (by match a with | ⟨0, _⟩ => rfl | ⟨1, _⟩ => rfl | ⟨2, _⟩ => rfl | ⟨3, _⟩ => rfl)
theorem lidx_v16 (b : Fin 4) (h : Fin 16) (i j : Fin 2048) (d : Fin 64) :
    lidx_main_v16 (ix4 b h i d) j = ix4 b h i j :=
  funext fun a => Fin.ext (by match a with | ⟨0, _⟩ => rfl | ⟨1, _⟩ => rfl | ⟨2, _⟩ => rfl | ⟨3, _⟩ => rfl)
theorem ridx_v16 (b : Fin 4) (h : Fin 16) (i j : Fin 2048) (d : Fin 64) :
    ridx_main_v16 (ix4 b h i d) j = ix4 b h j d :=
  funext fun a => Fin.ext (by match a with | ⟨0, _⟩ => rfl | ⟨1, _⟩ => rfl | ⟨2, _⟩ => rfl | ⟨3, _⟩ => rfl)

/-! ## Stage by stage -/

/-- The scaled score tensor at (b, h, i, j) is the score of key j for query row (b, h, i). -/
theorem score_eq (b : Fin 4) (h : Fin 16) (i j : Fin 2048) :
    val_main_v4 (F := Ideal) x0 x1 (ix4 b h i j) = rowScore (headQ x0 b h i) (headK x1 b h) j := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def, one_div_sqrt_64,
    lidx_v2, ridx_v2]
  rfl

/-- The reduce over the key axis contracts axis 3 of the score tensor. -/
theorem reduces_keys : S4x16x2048x2048.Reduces [3] S4x16x2048 := by decide

/-- The key coordinate inserted into (b, h, i). -/
theorem lift_keys (b : Fin 4) (h : Fin 16) (i j : Fin 2048) :
    reduces_keys.lift (ix3 b h i) j = ix4 b h i j :=
  funext fun a => Fin.ext (by match a with | ⟨0, _⟩ => rfl | ⟨1, _⟩ => rfl | ⟨2, _⟩ => rfl | ⟨3, _⟩ => rfl)

/-- The maximum the reference subtracts, at (b, h, i), is the row's maximum: the reduce is the fold of `max` from -∞
    over the key coordinate, and the further `max` against -∞ is the identity. -/
theorem max_eq (b : Fin 4) (h : Fin 16) (i : Fin 2048) :
    val_main_v7 (F := Ideal) x0 x1 (ix3 b h i) = rowMax (headQ x0 b h i) (headK x1 b h) := by
  rw [val_main_v7_apply, val_main_v6_apply, val_main_cst_2_apply]
  unfold val_main_v5
  rw [Host.reduce_eq_fold_single FloatOps.maximumf _ _ reducesTo_S4x16x2048x2048_S4x16x2048_d3 reduces_keys h_S_ (ix3 b h i),
    val_main_cst_1_apply]
  show max (Ideal.ofBits .f32 0xFF800000#32)
    ((Finset.univ : Finset (Fin 2048)).fold max (Ideal.ofBits .f32 0xFF800000#32) (val_main_v4 (F := Ideal) x0 x1 ∘ reduces_keys.lift (ix3 b h i))) = _
  rw [ofBits_ninf, max_bot_left]
  unfold rowMax
  refine congrArg (fun f : Fin 2048 → EReal => (Finset.univ : Finset (Fin 2048)).fold max ⊥ f) (funext fun (j : Fin 2048) => ?_)
  exact (congrArg (val_main_v4 (F := Ideal) x0 x1) (lift_keys b h i j)).trans (score_eq x0 x1 b h i j)

/-- The exponentials at (b, h, i, j) are the weights. -/
theorem weight_eq (b : Fin 4) (h : Fin 16) (i j : Fin 2048) :
    val_main_v11 (F := Ideal) x0 x1 (ix4 b h i j) = rowWeight (headQ x0 b h i) (headK x1 b h) j := by
  rw [val_main_v11_apply, val_main_v10_apply, val_main_v9_apply, val_main_v8_apply, idx_v8_v9, max_eq, score_eq]
  rfl

/-- The sum over the key axis at (b, h, i) is the row sum of the weights. -/
theorem rowsum_eq (b : Fin 4) (h : Fin 16) (i : Fin 2048) :
    val_main_v12 (F := Ideal) x0 x1 (ix3 b h i) = ∑ j, rowWeight (headQ x0 b h i) (headK x1 b h) j := by
  rw [val_main_v12_apply, val_main_cst_3_apply]
  show Ideal.ofBits .f32 0x00000000#32 + _ = _
  rw [Ideal.ofBits_zero_f32, zero_add]
  exact Finset.sum_congr rfl fun j _ => by rw [idx_v12, weight_eq]

/-! ## The result -/

/-- The reference's result is attention with the weights normalised first. -/
theorem result_eq : val_main_v16 (F := Ideal) x0 x1 x2 = attnR x0 x1 x2 := by
  funext x
  obtain ⟨b, h, i, d, rfl⟩ : ∃ (b : Fin 4) (h : Fin 16) (i : Fin 2048) (d : Fin 64), x = ix4 b h i d :=
    ⟨x 0, x 1, x 2, x 3, eq_ix4 x⟩
  rw [val_main_v16_apply]
  show _ = rowOutR (headQ x0 b h i) (headK x1 b h) (headV x2 b h d)
  unfold rowOutR
  refine Finset.sum_congr rfl fun j _ => ?_
  rw [lidx_v16, ridx_v16, val_main_v15_apply, val_main_v14_apply, val_main_v13_apply, idx_v13_v14, rowsum_eq, weight_eq]
  rfl

end Cert.Attn.Ref

end
-- ==== Proof.Finite.lean ====
/-
  The precondition, read back: every entry of the three arguments is a real number.

  The printed predicate is all(|q| < +∞) ∧ all(|k| < +∞) ∧ all(|v| < +∞), each `all` a reduce by `and` over every
  axis. If it is 1, each reduce is 1, so each comparison is 1 at every entry; and on the extended reals
  max x (-x) < +∞ fails at both infinities, so x is a real.
-/
import proofs.«426709_j44246753083844_3_alg».proof.Pre_finite_inputs
import proofs.«426709_j44246753083844_3_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Cert.Pre_finite_inputs Cert.Pre_finite_inputs.Gen

instance : Subsingleton S_.Idx := ⟨fun a b => funext fun d => d.elim0⟩

/-- The word `0x7F800000` denotes +∞. -/
theorem ofBits_pinf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_pinf] at h
  induction x using EReal.rec with
  | bot => simp [Ideal.cmp] at h
  | coe r => exact ⟨r, rfl⟩
  | top => simp [Ideal.cmp] at h

/-- Under the precondition every entry of each argument is a real. -/
theorem real_of_pre (a0 a1 a2 : FVec Ideal S4x16x2048x64 .f32) (h : fn (F := Ideal) a0 a1 a2 = fun _ => 1#1) :
    (∀ x, ∃ r : ℝ, a0 x = (r : EReal)) ∧ (∀ x, ∃ r : ℝ, a1 x = (r : EReal)) ∧ (∀ x, ∃ r : ℝ, a2 x = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨fun x => real_of_abs_lt _ (Host.reduce_andi_all _ _ _ _ _ h0' x),
    fun x => real_of_abs_lt _ (Host.reduce_andi_all _ _ _ _ _ h1 x),
    fun x => real_of_abs_lt _ (Host.reduce_andi_all _ _ _ _ _ h2 x)⟩

end Cert.Attn.Finite

end
-- ==== Proof.lean ====
/-
  Scaled dot-product attention, fused, against einsum → softmax → einsum, over the extended reals.

  Both programs compute, for every head (b, h), query row i and value feature d,

      out(b, h, i, d) = Σ_j softmax_j (q_i · k_j / 8) · v(j, d),     softmax_j s = exp (s_j - max s) / Σ_j' exp (s_j' - max s).

  The reference divides every weight exp (s_j - max s) by the row sum before the second product. The kernel works
  one head and one tile of 512 query rows at a time, takes the row sum from the same matrix product (a block of ones
  beside the values makes column 64 of the product the row sum), and multiplies the weighted sum by ONE reciprocal of
  the row sum afterwards. Its scale is the literal 0.125 where the reference computes 1.0 / sqrt 64.0; the ideal square
  root of 64 is 8, so the two scales are the same real 1/8. Rounding the matrix products' operands to bf16 is the
  identity at the ideal values.

  Moving the reciprocal across the sum is not an identity of the extended reals; it is one of ℝ. Under the
  precondition every input entry is a real, so every score is a real, the row maximum is one of the scores, every weight
  is a positive real and the row sum is a positive real: there the two arrangements agree (Proof/Row.lean).

  Proof/Row.lean: one query row, the two arrangements, their equality on reals. Proof/RefValue.lean: the reference's
  result is the normalise-first arrangement. Proof/Dots.lean, Pieces.lean, Payload.lean: what the kernel body stores is
  the reciprocal-after arrangement of its blocks' rows. Proof/KernelValue.lean: the 256 blocks tile the output, and with
  the head reshapes around the launch the kernel's result is the reciprocal-after arrangement of the arguments.
  Proof/Finite.lean: the precondition read back.
-/
import proofs.«426709_j44246753083844_3_alg».proof.Defs
import proofs.«426709_j44246753083844_3_alg».proof.Proof.Gen.Kernel
import proofs.«426709_j44246753083844_3_alg».proof.Proof.Gen.Kernel.Skeleton
import proofs.«426709_j44246753083844_3_alg».proof.Proof.Gen.Kernel.Launch
import proofs.«426709_j44246753083844_3_alg».proof.Proof.Gen.Kernel.Points
import proofs.«426709_j44246753083844_3_alg».proof.Proof.Gen.Kernel.Frame
import proofs.«426709_j44246753083844_3_alg».proof.Proof.Gen.KernelIdeal
import proofs.«426709_j44246753083844_3_alg».proof.Proof.Gen.KernelIdeal.Skeleton
import proofs.«426709_j44246753083844_3_alg».proof.Proof.Gen.KernelIdeal.Launch
import proofs.«426709_j44246753083844_3_alg».proof.Proof.Gen.KernelIdeal.Points
import proofs.«426709_j44246753083844_3_alg».proof.Proof.Gen.KernelIdeal.Frame
import proofs.«426709_j44246753083844_3_alg».proof.Proof.Gen.ReferenceIdeal
import proofs.«426709_j44246753083844_3_alg».proof.Proof.Gen.Pre_finite_inputs
import proofs.«426709_j44246753083844_3_alg».proof.Proof.Gen.ReferenceIdeal.Run
import proofs.«426709_j44246753083844_3_alg».proof.Proof.Gen.ReferenceIdeal.Read
import proofs.«426709_j44246753083844_3_alg».proof.Proof.KernelValue
import proofs.«426709_j44246753083844_3_alg».proof.Proof.RefValue
import proofs.«426709_j44246753083844_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the three arguments, both programs end with the same array: the kernel's is the
    reciprocal-after arrangement of its arguments, the reference's the normalise-first arrangement of its own, and under
    the precondition the arguments are arrays of reals, on which the two arrangements are one function. -/
theorem algebraic : Cert.algebraic_KernelIdeal_ReferenceIdeal := by
  intro m ρ m' ρ' hpre hagree
  refine ⟨fun c => Cert.Attn.attnK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.KerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ?_
  rw [Cert.Attn.Ref.result_eq, (hagree c).1, (hagree c).2.1, (hagree c).2.2]
  obtain ⟨h0, h1, h2⟩ := Cert.Attn.Finite.real_of_pre _ _ _ (hpre c)
  exact (Cert.Attn.attn_eq _ _ _ h0 h1 h2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
